-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x16 .f32) (main_arg9 : FVec F S16 .f32) (main_arg10 : FVec F S16x1 .f32) (main_arg11 : FVec F S1 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64x32 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S4000x64 : Shape := ⟨2, ![4000, 64]⟩
abbrev S1x64 : Shape := ⟨2, ![1, 64]⟩
abbrev S100000x32 : Shape := ⟨2, ![100000, 32]⟩
abbrev S4000x32 : Shape := ⟨2, ![4000, 32]⟩
abbrev S4000x1 : Shape := ⟨2, ![4000, 1]⟩
abbrev S1x32 : Shape := ⟨2, ![1, 32]⟩
abbrev S4000x16 : Shape := ⟨2, ![4000, 16]⟩
abbrev S1x16 : Shape := ⟨2, ![1, 16]⟩
abbrev S1x1 : Shape := ⟨2, ![1, 1]⟩

abbrev nBuf : Space → Nat
  | .hbm => 69
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S100000x1, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x32, .f32⟩
  | .local _ .vmem, ⟨14, _⟩ => ⟨S64x32, .f32⟩
  | .local _ .vmem, ⟨15, _⟩ => ⟨S32, .f32⟩
  | .local _ .vmem, ⟨16, _⟩ => ⟨S32x16, .f32⟩
  | .local _ .vmem, ⟨17, _⟩ => ⟨S16, .f32⟩
  | .local _ .vmem, ⟨18, _⟩ => ⟨S16x1, .f32⟩
  | .local _ .vmem, ⟨19, _⟩ => ⟨S1, .f32⟩
  | .local _ .vmem, ⟨20, _⟩ => ⟨S4000x32, .f32⟩
  | .local _ .vmem, ⟨21, _⟩ => ⟨S4000x32, .f32⟩
  | .local _ .vmem, ⟨22, _⟩ => ⟨S4000x1, .f32⟩
  | .local _ .vmem, ⟨23, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43_0 : Ref sig .tc := ⟨.hbm, 67, rfl⟩
abbrev main_v43_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  dot_S4000x32_S32x16_S4000x16_1_0_0_1_n_n_wf : DotDims.WF S4000x32 S32x16 S4000x16 [1] [0] [0] [1] [] []
  dot_S4000x16_S16x1_S4000x1_1_0_0_1_n_n_wf : DotDims.WF S4000x16 S16x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x16.size a ≤ S32x16.size a
  hwx1_5 : ∀ i : grid1.Coords, EltTy.bits .f32 = 32 ∨ (Rect.block (s := S32x16) S32x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16.size a ≤ S16.size a
  hwx1_6 : ∀ i : grid1.Coords, EltTy.bits .f32 = 32 ∨ (Rect.block (s := S16) S16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x1.size a ≤ S16x1.size a
  hwx1_7 : ∀ i : grid1.Coords, EltTy.bits .f32 = 32 ∨ (Rect.block (s := S16x1) S16x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x32.size a ≤ S100000x32.size a
  hwx1_9 : ∀ i : grid1.Coords, EltTy.bits .f32 = 32 ∨ (Rect.block (s := S100000x32) S4000x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x1.size a ≤ S100000x1.size a
  hwx1_10 : ∀ i : grid1.Coords, EltTy.bits .f32 = 32 ∨ (Rect.block (s := S100000x1) S4000x1.size (cc1_transform_10 i) (hinb1_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf

abbrev win0_0 : Pipeline.Window sig grid0 :=
  Pipeline.Window.ofSpec (Memref.whole main_v22) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S16x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43_0) S4000x32.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v43_1) S4000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | .hbm, ⟨81, _⟩ => ⟨S100000x16, .f32⟩
  | .hbm, ⟨82, _⟩ => ⟨S1x16, .f32⟩
  | .hbm, ⟨83, _⟩ => ⟨S100000x16, .f32⟩
  | .hbm, ⟨84, _⟩ => ⟨S100000x16, .f32⟩
  | .hbm, ⟨85, _⟩ => ⟨S_, .f32⟩
  | .hbm, ⟨86, _⟩ => ⟨S100000x16, .f32⟩
  | .hbm, ⟨87, _⟩ => ⟨S100000x16, .f32⟩
  | .hbm, ⟨88, _⟩ => ⟨S100000x1, .f32⟩
  | .hbm, ⟨89, _⟩ => ⟨S1x1, .f32⟩
  | .hbm, ⟨90, _⟩ => ⟨S100000x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S_, .f32⟩
  | .hbm, ⟨98, _⟩ => ⟨S100000x1, .f32⟩
  | .hbm, ⟨99, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Spec.lean ====
/-
  The mathematics of the two-layer mean-aggregation network with its trust head, on the extended reals.

  Every dense stage acts on rows: row p of the output depends on row p of its matrix operands and on the
  weights only.  With A the mean of the neighbours' features and X the node's own features,

    layer one        H  = max (A·Wl₁ + X·Wr₁ + b₁, 0)            an [n, 64] array,
    layer two        H₂ = A₂·Wl₂ + H·Wr₂ + b₂                    an [n, 32] array,
    the hidden head  T  = max (H₂·Wt₁ + bt₁, 0)                  an [n, 16] array,
    the trust score  s  = σ (T·Wt₂ + bt₂),  σ z = 1 / (1 + e^(-z))   an [n, 1] array,

  each product a plain finite sum over the contracted axis, the bias added last and the sums grouped as
  written: (A·Wl + X·Wr) + b.  The functions are stated for any number of rows n, so that the same
  definition speaks of a block of 4000 rows and of the whole array of 100000 rows; that a block of the
  whole array's result is the result on the block's rows is `rows_congr` for each stage.
-/
import Idealize.ShloMosaic.Lib.ValueIdx
import Idealize.ShloMosaic.PureOps.Ideal

noncomputable section

open scoped BigOperators

namespace Cert.SageSpec

open Idealize.ShloMosaic Idealize.ShloMosaic.ValueIdx

/-- An [n, d] array of extended reals. -/
abbrev Mat (n d : ℕ) : Type := (⟨2, ![n, d]⟩ : Shape).Idx → EReal
/-- A [d] vector of extended reals. -/
abbrev Vc (d : ℕ) : Type := (⟨1, ![d]⟩ : Shape).Idx → EReal

/-- Entry (p, j) of the matrix product A·W: the sum over the contracted axis. -/
def rowDot {n k d : ℕ} (A : Mat n k) (W : Mat k d) (p : Fin n) (j : Fin d) : EReal :=
  ∑ t : Fin k, A (ix2 p t) * W (ix2 t j)

/-- A·W + b, the bias along the rows. -/
def dense {n k d : ℕ} (A : Mat n k) (W : Mat k d) (b : Vc d) : Mat n d :=
  fun i => rowDot A W (i 0) (i 1) + b (ix1 (i 1))

/-- (A·Wl + X·Wr) + b: one mean-aggregation convolution's dense part. -/
def conv {n k d : ℕ} (A X : Mat n k) (Wl Wr : Mat k d) (b : Vc d) : Mat n d :=
  fun i => rowDot A Wl (i 0) (i 1) + rowDot X Wr (i 0) (i 1) + b (ix1 (i 1))

/-- The positive part, entry by entry. -/
def relu {n d : ℕ} (M : Mat n d) : Mat n d := fun i => max (M i) 0

/-- Layer one: the convolution followed by the positive part. -/
def layer1 {n k d : ℕ} (A X : Mat n k) (Wl Wr : Mat k d) (b : Vc d) : Mat n d := relu (conv A X Wl Wr b)

/-- The head's hidden stage: a dense map followed by the positive part. -/
def hidden {n k d : ℕ} (H : Mat n k) (W : Mat k d) (b : Vc d) : Mat n d := relu (dense H W b)

/-- The trust score: the logistic function of a dense map of the hidden stage. -/
def trust {n k d e : ℕ} (H : Mat n k) (W₁ : Mat k d) (b₁ : Vc d) (W₂ : Mat d e) (b₂ : Vc e) : Mat n e :=
  fun i => Ideal.logistic (dense (hidden H W₁ b₁) W₂ b₂ i)

theorem dense_ix2 {n k d : ℕ} (A : Mat n k) (W : Mat k d) (b : Vc d) (p : Fin n) (j : Fin d) :
    dense A W b (ix2 p j) = rowDot A W p j + b (ix1 j) := rfl

theorem conv_ix2 {n k d : ℕ} (A X : Mat n k) (Wl Wr : Mat k d) (b : Vc d) (p : Fin n) (j : Fin d) :
    conv A X Wl Wr b (ix2 p j) = rowDot A Wl p j + rowDot X Wr p j + b (ix1 j) := rfl

theorem layer1_ix2 {n k d : ℕ} (A X : Mat n k) (Wl Wr : Mat k d) (b : Vc d) (p : Fin n) (j : Fin d) :
    layer1 A X Wl Wr b (ix2 p j) = max (rowDot A Wl p j + rowDot X Wr p j + b (ix1 j)) 0 := rfl

theorem hidden_ix2 {n k d : ℕ} (H : Mat n k) (W : Mat k d) (b : Vc d) (p : Fin n) (j : Fin d) :
    hidden H W b (ix2 p j) = max (rowDot H W p j + b (ix1 j)) 0 := rfl

theorem trust_ix2 {n k d e : ℕ} (H : Mat n k) (W₁ : Mat k d) (b₁ : Vc d) (W₂ : Mat d e) (b₂ : Vc e)
    (p : Fin n) (j : Fin e) :
    trust H W₁ b₁ W₂ b₂ (ix2 p j) = Ideal.logistic (rowDot (hidden H W₁ b₁) W₂ p j + b₂ (ix1 j)) := rfl

/-! ## Rows: an entry of a stage's result depends only on the same row of its matrix operands -/

theorem rowDot_congr {n n' k d : ℕ} {A : Mat n k} {A' : Mat n' k} (W : Mat k d) {p : Fin n} {p' : Fin n'}
    (h : ∀ t : Fin k, A (ix2 p t) = A' (ix2 p' t)) (j : Fin d) : rowDot A W p j = rowDot A' W p' j :=
  Finset.sum_congr rfl fun t _ => by rw [h t]

theorem layer1_rows {n n' k d : ℕ} {A X : Mat n k} {A' X' : Mat n' k} (Wl Wr : Mat k d) (b : Vc d)
    {p : Fin n} {p' : Fin n'} (hA : ∀ t : Fin k, A (ix2 p t) = A' (ix2 p' t))
    (hX : ∀ t : Fin k, X (ix2 p t) = X' (ix2 p' t)) (j : Fin d) :
    layer1 A X Wl Wr b (ix2 p j) = layer1 A' X' Wl Wr b (ix2 p' j) := by
  rw [layer1_ix2, layer1_ix2, rowDot_congr Wl hA j, rowDot_congr Wr hX j]

theorem conv_rows {n n' k d : ℕ} {A X : Mat n k} {A' X' : Mat n' k} (Wl Wr : Mat k d) (b : Vc d)
    {p : Fin n} {p' : Fin n'} (hA : ∀ t : Fin k, A (ix2 p t) = A' (ix2 p' t))
    (hX : ∀ t : Fin k, X (ix2 p t) = X' (ix2 p' t)) (j : Fin d) :
    conv A X Wl Wr b (ix2 p j) = conv A' X' Wl Wr b (ix2 p' j) := by
  rw [conv_ix2, conv_ix2, rowDot_congr Wl hA j, rowDot_congr Wr hX j]

theorem hidden_rows {n n' k d : ℕ} {H : Mat n k} {H' : Mat n' k} (W : Mat k d) (b : Vc d)
    {p : Fin n} {p' : Fin n'} (h : ∀ t : Fin k, H (ix2 p t) = H' (ix2 p' t)) (j : Fin d) :
    hidden H W b (ix2 p j) = hidden H' W b (ix2 p' j) := by
  rw [hidden_ix2, hidden_ix2, rowDot_congr W h j]

theorem trust_rows {n n' k d e : ℕ} {H : Mat n k} {H' : Mat n' k} (W₁ : Mat k d) (b₁ : Vc d) (W₂ : Mat d e)
    (b₂ : Vc e) {p : Fin n} {p' : Fin n'} (h : ∀ t : Fin k, H (ix2 p t) = H' (ix2 p' t)) (j : Fin e) :
    trust H W₁ b₁ W₂ b₂ (ix2 p j) = trust H' W₁ b₁ W₂ b₂ (ix2 p' j) := by
  rw [trust_ix2, trust_ix2, rowDot_congr W₂ (fun t => hidden_rows W₁ b₁ h t) j]

end Cert.SageSpec

end
-- ==== Proof.Network.lean ====
/-
  The whole network as functions of its twelve argument arrays, on the extended reals.

  With x the node features, e the edge list and M the mean over a node's incoming edges of the source
  nodes' rows (gathered at the source indices, summed into the destination rows, divided by the larger of the
  in-degree and one — the reference program's own stage, one function of a feature array and the edge list,
  never opened here),

    the first layer   h = max (M(x, e)·Wl₁ + x·Wr₁ + b₁, 0),
    the embedding     z = M(h, e)·Wl₂ + h·Wr₂ + b₂,
    the trust score   s = σ (max (z·Wt₁ + bt₁, 0)·Wt₂ + bt₂).

  Both programs are shown to end with (z, s) of their arguments.
-/
import proofs.«142041_j80023830659561_1_alg».proof.Proof.Gen.ReferenceIdeal.Read
import proofs.«142041_j80023830659561_1_alg».proof.Proof.Spec

noncomputable section

namespace Cert.SageNet

open Cert.ReferenceIdeal Cert.SageSpec Idealize.ShloMosaic

/-- The mean of the neighbours' features: one function of the feature array and the edge list. -/
abbrev meanOfNeighbours (feat : FVec Ideal S100000x64 .f32) (edges : IVec S2x1600000 32) : FVec Ideal S100000x64 .f32 :=
  Cert.ReferenceIdeal.Read.val_main_v22 (F := Ideal) feat edges

/-- The first layer's features. -/
def firstLayer (x : FVec Ideal S100000x64 .f32) (e : IVec S2x1600000 32) (wl₁ wr₁ : FVec Ideal S64x64 .f32)
    (b₁ : FVec Ideal S64 .f32) : FVec Ideal S100000x64 .f32 :=
  layer1 (meanOfNeighbours x e) x wl₁ wr₁ b₁

/-- The second layer's output: the node embedding. -/
def embedding (x : FVec Ideal S100000x64 .f32) (e : IVec S2x1600000 32) (wl₁ wr₁ : FVec Ideal S64x64 .f32)
    (b₁ : FVec Ideal S64 .f32) (wl₂ wr₂ : FVec Ideal S64x32 .f32) (b₂ : FVec Ideal S32 .f32) :
    FVec Ideal S100000x32 .f32 :=
  conv (meanOfNeighbours (firstLayer x e wl₁ wr₁ b₁) e) (firstLayer x e wl₁ wr₁ b₁) wl₂ wr₂ b₂

/-- The trust score of each node. -/
def trustScore (x : FVec Ideal S100000x64 .f32) (e : IVec S2x1600000 32) (wl₁ wr₁ : FVec Ideal S64x64 .f32)
    (b₁ : FVec Ideal S64 .f32) (wl₂ wr₂ : FVec Ideal S64x32 .f32) (b₂ : FVec Ideal S32 .f32)
    (wt₁ : FVec Ideal S32x16 .f32) (bt₁ : FVec Ideal S16 .f32) (wt₂ : FVec Ideal S16x1 .f32) (bt₂ : FVec Ideal S1 .f32) :
    FVec Ideal S100000x1 .f32 :=
  trust (embedding x e wl₁ wr₁ b₁ wl₂ wr₂ b₂) wt₁ bt₁ wt₂ bt₂

end Cert.SageNet

end
-- ==== Proof.Boundaries.lean ====
/-
  The contents of the arrays the two kernel regions read, at each region's entry, as functions of the
  program's launch memory.

  Before the first region the program computes, on the host, the mean over each node's incoming edges of the
  source nodes' features (the rows of the feature array gathered at the edges' source indices, summed into
  the destination rows, divided by the larger of the in-degree and one).  The reference program applies the
  very same operations to the same arguments, so that array is named by the reference's own stage, the
  one function `meanOfNeighbours` of a feature array and the edge list, and is never opened.  Between the
  regions the program applies that function again, to the first region's result.  No operation writes an
  argument array, and the first region's result is not written between the regions.
-/
import proofs.«142041_j80023830659561_1_alg».proof.Proof.Gen.KernelIdeal.Frame
import proofs.«142041_j80023830659561_1_alg».proof.Proof.Network
import Idealize.ShloMosaic.Lib.StableHlo.Run

set_option maxRecDepth 16384

noncomputable section

namespace Cert.SageKernel

open Cert.KernelIdeal Cert.KernelIdeal.Gen Cert.SageNet
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first region's entry -/

set_option maxHeartbeats 8000000 in
/-- The first region's first operand is the mean of the neighbours' input features. -/
theorem entry1_mean (c : Dev nD) :
    V1 (F := Ideal) m ρ c main_v22
      = meanOfNeighbours (m ((c : Thread nD τ).loc main_arg0)) (m ((c : Thread nD τ).loc main_arg1)) := by
  dsimp only [V1, W1]
  after_results_simp
  rfl

set_option maxHeartbeats 8000000 in
theorem entry1_arg0 (c : Dev nD) : V1 (F := Ideal) m ρ c main_arg0 = m ((c : Thread nD τ).loc main_arg0) := by
  dsimp only [V1, W1]
  after_results_simp

set_option maxHeartbeats 8000000 in
theorem entry1_arg2 (c : Dev nD) : V1 (F := Ideal) m ρ c main_arg2 = m ((c : Thread nD τ).loc main_arg2) := by
  dsimp only [V1, W1]
  after_results_simp

set_option maxHeartbeats 8000000 in
theorem entry1_arg3 (c : Dev nD) : V1 (F := Ideal) m ρ c main_arg3 = m ((c : Thread nD τ).loc main_arg3) := by
  dsimp only [V1, W1]
  after_results_simp

set_option maxHeartbeats 8000000 in
theorem entry1_arg4 (c : Dev nD) : V1 (F := Ideal) m ρ c main_arg4 = m ((c : Thread nD τ).loc main_arg4) := by
  dsimp only [V1, W1]
  after_results_simp

/-! ## The second region's entry -/

set_option maxHeartbeats 8000000 in
/-- The edges' source indices, computed before the first region, are still there after it. -/
theorem exit1_src (c : Dev nD) :
    W2 (F := Ideal) m ρ c (Proc.devRef .tc main_v1) = Cert.ReferenceIdeal.Read.val_main_v1 (F := Ideal) (m ((c : Thread nD τ).loc main_arg1)) := by
  refine (W2_of_ne m ρ c main_v1 (by decide)).trans ?_
  dsimp only [W1]
  after_results_simp
  rfl

set_option maxHeartbeats 8000000 in
/-- The edges' destination indices, computed before the first region, are still there after it. -/
theorem exit1_dst (c : Dev nD) :
    W2 (F := Ideal) m ρ c (Proc.devRef .tc main_v3) = Cert.ReferenceIdeal.Read.val_main_v3 (F := Ideal) (m ((c : Thread nD τ).loc main_arg1)) := by
  refine (W2_of_ne m ρ c main_v3 (by decide)).trans ?_
  dsimp only [W1]
  after_results_simp
  rfl

set_option maxHeartbeats 8000000 in
/-- The second region's first operand is the mean of the neighbours' first-layer features. -/
theorem entry2_mean (c : Dev nD) :
    V3 (F := Ideal) m ρ c main_v42
      = meanOfNeighbours (V2 (F := Ideal) m ρ c main_v23) (m ((c : Thread nD τ).loc main_arg1)) := by
  dsimp only [V3, W3]
  after_results_simp
  rw [exit1_src, exit1_dst]
  rfl

set_option maxHeartbeats 8000000 in
/-- The first region's result is not written between the regions. -/
theorem entry2_layer1 (c : Dev nD) : V3 (F := Ideal) m ρ c main_v23 = V2 (F := Ideal) m ρ c main_v23 := by
  dsimp only [V3, W3]
  after_results_simp

set_option maxHeartbeats 8000000 in
theorem entry2_arg5 (c : Dev nD) : V3 (F := Ideal) m ρ c main_arg5 = m ((c : Thread nD τ).loc main_arg5) := by
  dsimp only [V3, W3]
  after_results_simp
  refine (W2_of_ne m ρ c main_arg5 (by decide)).trans ?_
  dsimp only [W1]
  after_results_simp

set_option maxHeartbeats 8000000 in
theorem entry2_arg6 (c : Dev nD) : V3 (F := Ideal) m ρ c main_arg6 = m ((c : Thread nD τ).loc main_arg6) := by
  dsimp only [V3, W3]
  after_results_simp
  refine (W2_of_ne m ρ c main_arg6 (by decide)).trans ?_
  dsimp only [W1]
  after_results_simp

set_option maxHeartbeats 8000000 in
theorem entry2_arg7 (c : Dev nD) : V3 (F := Ideal) m ρ c main_arg7 = m ((c : Thread nD τ).loc main_arg7) := by
  dsimp only [V3, W3]
  after_results_simp
  refine (W2_of_ne m ρ c main_arg7 (by decide)).trans ?_
  dsimp only [W1]
  after_results_simp

set_option maxHeartbeats 8000000 in
theorem entry2_arg8 (c : Dev nD) : V3 (F := Ideal) m ρ c main_arg8 = m ((c : Thread nD τ).loc main_arg8) := by
  dsimp only [V3, W3]
  after_results_simp
  refine (W2_of_ne m ρ c main_arg8 (by decide)).trans ?_
  dsimp only [W1]
  after_results_simp

set_option maxHeartbeats 8000000 in
theorem entry2_arg9 (c : Dev nD) : V3 (F := Ideal) m ρ c main_arg9 = m ((c : Thread nD τ).loc main_arg9) := by
  dsimp only [V3, W3]
  after_results_simp
  refine (W2_of_ne m ρ c main_arg9 (by decide)).trans ?_
  dsimp only [W1]
  after_results_simp

set_option maxHeartbeats 8000000 in
theorem entry2_arg10 (c : Dev nD) : V3 (F := Ideal) m ρ c main_arg10 = m ((c : Thread nD τ).loc main_arg10) := by
  dsimp only [V3, W3]
  after_results_simp
  refine (W2_of_ne m ρ c main_arg10 (by decide)).trans ?_
  dsimp only [W1]
  after_results_simp

set_option maxHeartbeats 8000000 in
theorem entry2_arg11 (c : Dev nD) : V3 (F := Ideal) m ρ c main_arg11 = m ((c : Thread nD τ).loc main_arg11) := by
  dsimp only [V3, W3]
  after_results_simp
  refine (W2_of_ne m ρ c main_arg11 (by decide)).trans ?_
  dsimp only [W1]
  after_results_simp

end Cert.SageKernel

end
-- ==== Proof.LibPlainDot.lean ====
/-
  A plain matrix product read at an entry.

  For dimension numbers that contract the left operand's second axis with the right operand's first and keep
  the other two axes in order — an [n, k] array times a [k, e] array — the contraction's sum at entry (p, q),
  taken over the contraction's own index set, is the plain sum over t of l (p, t) · r (t, q).  The contraction
  index set has one axis of extent k; the sum is re-indexed along its bijection with the numbers below k, and
  on each term the two operand indices are computed axis by axis.  Stated for any extents and for any record
  with those axis lists, whatever its well-formedness proof; with it a product into a zero accumulator, and a
  host product, are the entry of the textbook matrix product.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n k e : ℕ}

/-- The sum over the contraction's index set is the sum over the contracted axis. -/
theorem contr_sum (d : DotDims ⟨2, ![n, k]⟩ ⟨2, ![k, e]⟩ ⟨2, ![n, e]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![n, k]⟩ : Shape).Idx → EReal) (r : (⟨2, ![k, e]⟩ : Shape).Idx → EReal) (p : Fin n) (q : Fin e) :
    ∑ c : d.contr.Idx, l (d.lhsIdx (ix2 p q) c) * r (d.rhsIdx (ix2 p q) c) = ∑ t : Fin k, l (ix2 p t) * r (ix2 t q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![n, k]⟩ ⟨2, ![k, e]⟩ ⟨2, ![n, e]⟩) k rfl rfl).symm]
  refine Finset.sum_congr rfl fun t _ => ?_
  have hk := contrEquiv1_symm_val (⟨[1], [0], [0], [1], [], [], wf⟩ : DotDims ⟨2, ![n, k]⟩ ⟨2, ![k, e]⟩ ⟨2, ![n, e]⟩) k rfl rfl t
  have el : (⟨[1], [0], [0], [1], [], [], wf⟩ : DotDims ⟨2, ![n, k]⟩ ⟨2, ![k, e]⟩ ⟨2, ![n, e]⟩).lhsIdx (ix2 p q)
      ((contrEquiv1 (⟨[1], [0], [0], [1], [], [], wf⟩ : DotDims ⟨2, ![n, k]⟩ ⟨2, ![k, e]⟩ ⟨2, ![n, e]⟩) k rfl rfl).symm t) = ix2 p t :=
    funext fun a => Fin.ext (by
      match a with
      | ⟨0, _⟩ =>
        unfold DotDims.lhsIdx
        rw [dif_neg (by simp), dif_pos (by simp)]
        rfl
      | ⟨1, _⟩ => exact (DotDims.lhsIdx_val_of_single _ rfl _ _).trans hk)
  have er : (⟨[1], [0], [0], [1], [], [], wf⟩ : DotDims ⟨2, ![n, k]⟩ ⟨2, ![k, e]⟩ ⟨2, ![n, e]⟩).rhsIdx (ix2 p q)
      ((contrEquiv1 (⟨[1], [0], [0], [1], [], [], wf⟩ : DotDims ⟨2, ![n, k]⟩ ⟨2, ![k, e]⟩ ⟨2, ![n, e]⟩) k rfl rfl).symm t) = ix2 t q :=
    funext fun a => Fin.ext (by
      match a with
      | ⟨0, _⟩ => exact (DotDims.rhsIdx_val_of_single _ rfl _ _).trans hk
      | ⟨1, _⟩ =>
        unfold DotDims.rhsIdx
        rw [dif_neg (by simp), dif_pos (by simp)]
        rfl)
  rw [el, er]

end Cert.LibPlainDot

end
-- ==== Proof.BlockLayer1.lean ====
/-
  Layer one on a block of rows.

  The value the first kernel stores for a block of 4000 rows is, entry by entry, the positive part of
  (A·Wl + X·Wr) + b: each of the two products into a zero accumulator is the plain sum over the contracted
  axis, the narrowing of the operands changes nothing on the extended reals, and the bias, read as a row
  and repeated along the rows, contributes b at the entry's column.
-/
import proofs.«142041_j80023830659561_1_alg».proof.Proof.Gen.KernelIdeal.Skeleton
import proofs.«142041_j80023830659561_1_alg».proof.Proof.Spec
import proofs.«142041_j80023830659561_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SageKernel

open Cert.KernelIdeal Cert.KernelIdeal.Gen Cert.SageSpec Idealize.ShloMosaic Idealize.ShloMosaic.ValueIdx

/-- A [4000, 64] by [64, 64] product into the zero accumulator, at entry (p, q): the sum over the
    contracted axis. -/
theorem product_entry (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ t : Fin 64, l (ix2 p t) * r (ix2 t q) :=
  (Ideal.matmul_constant_zero_apply dot_S4000x64_S64x64_S4000x64_1_0_0_1_n_n none l r (ix2 p q)).trans
    (Cert.LibPlainDot.contr_sum dot_S4000x64_S64x64_S4000x64_1_0_0_1_n_n rfl rfl rfl rfl rfl rfl l r p q)

/-- The bias read as a [1, 64] row and repeated along 4000 rows, at entry (p, q): b at q. -/
theorem bias_entry (b : Vec Ideal S64 .f32) (p : Fin 4000) (q : Fin 64) :
    broadcastTo S4000x64 (shapeCast S1x64 b shapeCasts_S64_S1x64) broadcasts_S1x64_S4000x64 (ix2 p q) = b (ix1 q) :=
  (broadcastTo_1b_ab_apply (shapeCast S1x64 b shapeCasts_S64_S1x64) broadcasts_S1x64_S4000x64 p q).trans
    (shapeCast_a_1a_apply b shapeCasts_S64_S1x64 (0 : Fin 1) q)

/-- The stored block is layer one of the block's rows. -/
theorem pay_layer1 (a x : Vec Ideal S4000x64 .f32) (wl wr : Vec Ideal S64x64 .f32) (b : Vec Ideal S64 .f32) :
    k0_pay1 (F := Ideal) a x wl wr b = layer1 a x wl wr b := by
  funext j
  obtain ⟨p, q, rfl⟩ : ∃ (p : Fin 4000) (q : Fin 64), j = ix2 p q := ⟨j 0, j 1, eq_ix2 j⟩
  rw [layer1_ix2]
  unfold k0_pay1 rowDot
  rw [maximumf_apply, addf_apply, addf_apply, product_entry, product_entry, bias_entry, broadcast_apply]
  simp only [truncf_apply, shapeCast_self]
  show max _ (Ideal.ofBits .f32 0x00000000#32) = _
  rw [Ideal.ofBits_zero_f32]

end Cert.SageKernel

end
-- ==== Proof.ArrayLayer1.lean ====
/-
  Layer one on the whole array.

  The first kernel runs over 25 grid points; point t reads rows 4000 t … 4000 t + 3999 of the two row operands,
  the whole of the two weight matrices and of the bias, and writes rows 4000 t … 4000 t + 3999 of the result.
  Layer one acts row by row, so what point t writes is block t of layer one of the whole arrays; the 25 blocks
  cover the 100000 rows (row r is in block r / 4000), so the result array is layer one of the whole arrays.
-/
import proofs.«142041_j80023830659561_1_alg».proof.Proof.Gen.KernelIdeal.Frame
import proofs.«142041_j80023830659561_1_alg».proof.Proof.BlockLayer1
import Idealize.ShloMosaic.Lib.Pipeline.Value

set_option maxRecDepth 16384

noncomputable section

namespace Cert.SageKernel

open Cert.KernelIdeal Cert.KernelIdeal.Gen Cert.SageSpec Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

/-- The origin of a two-axis rectangle. -/
theorem origin2 : (![0, 0] : Fin 2 → Nat) = fun _ => 0 := funext fun a => by fin_cases a <;> rfl
/-- The origin of a one-axis rectangle. -/
theorem origin1 : (![0] : Fin 1 → Nat) = fun _ => 0 := funext fun a => by fin_cases a; rfl

/-- The grid has 25 points. -/
theorem point_lt (t : Fin cfg0.N) : t.val < 25 := by
  have h := t.isLt
  have e : cfg0.N = 25 := N_0
  omega

/-- Block indices over the grid: at point t the two row operands and the result are at block (t, 0), the two
    weight matrices and the bias at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of block t is row 4000 t + p of the array. -/
theorem row_lt (t : Fin cfg0.N) (p : Fin 4000) : t.val * 4000 + p.val < 100000 := by
  have ht := point_lt t
  have hp := p.isLt
  omega

/-- Entry (p, q) of the result's block t sits at (4000 t + p, q) in the array. -/
theorem out_emb (t : Fin cfg0.N) (p : Fin 4000) (q : Fin 64) :
    ((cfg0.win 5).blk t).view.emb (ix2 p q) = ix2 (⟨t.val * 4000 + p.val, row_lt t p⟩ : Fin 100000) q := by
  obtain ⟨-, -, -, -, -, -, -, -, -, e0, e1⟩ := block_index t
  funext a; apply Fin.ext
  match a with
  | ⟨0, _⟩ => show win0_5.index t (0 : Fin 2) * 4000 + 1 * p.val = t.val * 4000 + p.val; omega
  | ⟨1, _⟩ => show win0_5.index t (1 : Fin 2) * 64 + 1 * q.val = q.val; omega

/-- Row p of the first operand's block t is row 4000 t + p of its array. -/
theorem agg_block (c : Dev nD) (t : Fin cfg0.N) (p : Fin 4000) (k : Fin 64) :
    iblk0 V c 0 t (ix2 p k) = V c main_v22 (ix2 (⟨t.val * 4000 + p.val, row_lt t p⟩ : Fin 100000) k) := by
  obtain ⟨e0, e1, -⟩ := block_index t
  show V c main_v22 (((cfg0.win 0).blk t).view.emb (ix2 p k)) = _
  refine congrArg (V c main_v22) (funext fun a => Fin.ext ?_)
  match a with
  | ⟨0, _⟩ => show win0_0.index t (0 : Fin 2) * 4000 + 1 * p.val = t.val * 4000 + p.val; omega
  | ⟨1, _⟩ => show win0_0.index t (1 : Fin 2) * 64 + 1 * k.val = k.val; omega

/-- Row p of the second operand's block t is row 4000 t + p of its array. -/
theorem self_block (c : Dev nD) (t : Fin cfg0.N) (p : Fin 4000) (k : Fin 64) :
    iblk0 V c 1 t (ix2 p k) = V c main_arg0 (ix2 (⟨t.val * 4000 + p.val, row_lt t p⟩ : Fin 100000) k) := by
  obtain ⟨-, -, e0, e1, -⟩ := block_index t
  show V c main_arg0 (((cfg0.win 1).blk t).view.emb (ix2 p k)) = _
  refine congrArg (V c main_arg0) (funext fun a => Fin.ext ?_)
  match a with
  | ⟨0, _⟩ => show win0_1.index t (0 : Fin 2) * 4000 + 1 * p.val = t.val * 4000 + p.val; omega
  | ⟨1, _⟩ => show win0_1.index t (1 : Fin 2) * 64 + 1 * k.val = k.val; omega

/-- The first weight matrix's block is the whole matrix. -/
theorem wl_block (c : Dev nD) (t : Fin cfg0.N) : (iblk0 V c 2 t : Mat 64 64) = V c main_arg2 := by
  obtain ⟨-, -, -, -, e0, e1, -⟩ := block_index t
  funext i
  show V c main_arg2 (((cfg0.win 2).blk t).view.emb i) = _
  refine congrArg (V c main_arg2) (funext fun a => Fin.ext ?_)
  match a with
  | ⟨0, _⟩ => show win0_2.index t (0 : Fin 2) * 64 + 1 * (i 0).val = (i 0).val; omega
  | ⟨1, _⟩ => show win0_2.index t (1 : Fin 2) * 64 + 1 * (i 1).val = (i 1).val; omega

/-- The second weight matrix's block is the whole matrix. -/
theorem wr_block (c : Dev nD) (t : Fin cfg0.N) : (iblk0 V c 3 t : Mat 64 64) = V c main_arg3 := by
  obtain ⟨-, -, -, -, -, -, e0, e1, -⟩ := block_index t
  funext i
  show V c main_arg3 (((cfg0.win 3).blk t).view.emb i) = _
  refine congrArg (V c main_arg3) (funext fun a => Fin.ext ?_)
  match a with
  | ⟨0, _⟩ => show win0_3.index t (0 : Fin 2) * 64 + 1 * (i 0).val = (i 0).val; omega
  | ⟨1, _⟩ => show win0_3.index t (1 : Fin 2) * 64 + 1 * (i 1).val = (i 1).val; omega

/-- The bias's block is the whole vector. -/
theorem bias_block (c : Dev nD) (t : Fin cfg0.N) : (iblk0 V c 4 t : Vc 64) = V c main_arg4 := by
  obtain ⟨-, -, -, -, -, -, -, -, e0, -⟩ := block_index t
  funext i
  show V c main_arg4 (((cfg0.win 4).blk t).view.emb i) = _
  refine congrArg (V c main_arg4) (funext fun a => Fin.ext ?_)
  match a with
  | ⟨0, _⟩ => show win0_4.index t (0 : Fin 1) * 64 + 1 * (i 0).val = (i 0).val; omega

/-- What point t writes back is block t of layer one of the whole arrays: layer one acts row by row. -/
theorem flushed_layer1 (c : Dev nD) (t : Fin cfg0.N) :
    (dat0 (F := Ideal) V c).flushed 5 t = ((cfg0.win 5).blk t).view.read (Elt Ideal)
      (layer1 (V c main_v22) (V c main_arg0) (V c main_arg2) (V c main_arg3) (V c main_arg4)) := by
  show (cfg0.win 5).cut (grid0.coords t) ((dat0 (F := Ideal) V c).after 5 t) = _
  rw [after0_5]
  unfold out0_5
  rw [View.canon_unit_zero origin2]
  simp only [View.ld_unit_zero (S := S4000x64) origin2, View.ld_unit_zero (S := S64x64) origin2, View.ld_unit_zero (S := S64) origin1]
  rw [pay_layer1]
  funext j
  obtain ⟨p, q, rfl⟩ : ∃ (p : Fin 4000) (q : Fin 64), j = ix2 p q := ⟨j 0, j 1, eq_ix2 j⟩
  show layer1 (iblk0 V c 0 t) (iblk0 V c 1 t) (iblk0 V c 2 t : Mat 64 64) (iblk0 V c 3 t : Mat 64 64) (iblk0 V c 4 t : Vc 64) (ix2 p q)
    = layer1 (V c main_v22) (V c main_arg0) (V c main_arg2) (V c main_arg3) (V c main_arg4) (((cfg0.win 5).blk t).view.emb (ix2 p q))
  rw [wl_block, wr_block, bias_block, out_emb]
  exact layer1_rows _ _ _ (agg_block V c t p) (self_block V c t p) q

/-- An entry of the array is in block t of the result iff each coordinate is in the block's range on its axis. -/
theorem mem_block (t : Fin cfg0.N) (i : S100000x64.Idx) :
    i ∈ ((cfg0.win 5).blk t).view.set ↔ ∀ a : Fin 2, win0_5.index t a * S4000x64.size a ≤ (i a).val
      ∧ (i a).val < win0_5.index t a * S4000x64.size a + S4000x64.size a := by
  show i ∈ ((View.whole main_v23).slice (win0_5.rect t)).set ↔ _
  rw [View.set_slice_whole, Rect.mem_set_unit]
  exact Iff.rfl

/-- The 25 blocks of 4000 rows cover the 100000 rows: row r is in block r / 4000. -/
theorem rows_covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have e : cfg0.N = 25 := N_0
  obtain ⟨t, ht⟩ : ∃ t : Fin cfg0.N, t.val = (i 0).val / 4000 := ⟨⟨(i 0).val / 4000, by omega⟩, rfl⟩
  obtain ⟨-, -, -, -, -, -, -, -, -, e0, e1⟩ := block_index t
  refine ⟨t, flush0_5 t, ?_⟩
  rw [mem_block]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 64 ≤ (i 1).val ∧ (i 1).val < win0_5.index t (1 : Fin 2) * 64 + 64
    omega

/-- After the first kernel the result array is layer one of the whole arrays. -/
theorem region0_array (c : Dev nD) :
    (dat0 (F := Ideal) V c).arrAt 5 cfg0.N
      = layer1 (V c main_v22) (V c main_arg0) (V c main_arg2) (V c main_arg3) (V c main_arg4) :=
  (dat0 (F := Ideal) V c).arrAt_eq_of_cover 5
    (layer1 (V c main_v22) (V c main_arg0) (V c main_arg2) (V c main_arg3) (V c main_arg4))
    (fun t _ => flushed_layer1 V c t) rows_covered

end Cert.SageKernel

end
-- ==== Proof.BlockLayer2.lean ====
/-
  Layer two and the trust head on one block of rows.

  The second kernel's stored values, read entry by entry, are the specification's functions of the
  block's operands: the [4000, 32] value is the convolution (A·Wl + H·Wr) + b, and the [4000, 1] value is
  the logistic function of the dense map of the positive part of the dense map of that convolution.
  The roundings to the narrow format are the identity on the extended reals, each product into a zero
  accumulator is the plain sum over the contracted axis, and each bias, a vector cast to one row and
  repeated along the rows, reads at (p, q) the vector's entry q.
-/
import proofs.«142041_j80023830659561_1_alg».proof.Proof.Gen.KernelIdeal.Skeleton
import proofs.«142041_j80023830659561_1_alg».proof.Proof.Spec
import proofs.«142041_j80023830659561_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SageKernel

open Cert.KernelIdeal Cert.KernelIdeal.Gen Cert.SageSpec Idealize.ShloMosaic Idealize.ShloMosaic.ValueIdx

/-- A product of an [n, k] array with a [k, e] array into the zero accumulator, read at (p, q): the
    plain sum over the contracted axis. -/
theorem matmul_zero_entry {n k e : ℕ} {φ₁ φ₂ : FTy}
    (d : DotDims ⟨2, ![n, k]⟩ ⟨2, ![k, e]⟩ ⟨2, ![n, e]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![n, k]⟩ φ₁) (r : FVec Ideal ⟨2, ![k, e]⟩ φ₂) (p : Fin n) (q : Fin e) :
    matmul d none l r (constant (F := Ideal) ⟨2, ![n, e]⟩ .f32 0x00000000#32) (ix2 p q)
      = ∑ t : Fin k, l (ix2 p t) * r (ix2 t q) :=
  (Ideal.matmul_constant_zero_apply d none l r (ix2 p q)).trans
    (Cert.LibPlainDot.contr_sum d hlc hrc hln hrn hlb hrb l r p q)

/-- A [d] vector cast to [1, d] and repeated along n rows reads, at (p, q), the vector's entry q. -/
theorem bias_row_entry {n d : ℕ} (b : (⟨1, ![d]⟩ : Shape).Idx → EReal)
    (hc : (⟨1, ![d]⟩ : Shape).ShapeCasts ⟨2, ![1, d]⟩)
    (hb : (⟨2, ![1, d]⟩ : Shape).Broadcasts ⟨2, ![n, d]⟩) (p : Fin n) (q : Fin d) :
    broadcastTo ⟨2, ![n, d]⟩ (shapeCast ⟨2, ![1, d]⟩ b hc) hb (ix2 p q) = b (ix1 q) :=
  (broadcastTo_1b_ab_apply _ hb p q).trans (shapeCast_a_1a_apply b hc 0 q)

/-- The [4000, 32] stored value is the convolution of the block's operands. -/
theorem pay_conv2 (a h : Vec Ideal S4000x64 .f32) (wl wr : Vec Ideal S64x32 .f32) (b : Vec Ideal S32 .f32) :
    k1_pay2 (F := Ideal) a h wl wr b = conv a h wl wr b := by
  funext j
  obtain ⟨p, q, rfl⟩ : ∃ (p : Fin 4000) (q : Fin 32), j = ix2 p q := ⟨j 0, j 1, eq_ix2 j⟩
  rw [conv_ix2]
  unfold k1_pay2 rowDot
  rw [addf_apply, addf_apply]
  rw [matmul_zero_entry dot_S4000x64_S64x32_S4000x32_1_0_0_1_n_n rfl rfl rfl rfl rfl rfl,
    matmul_zero_entry dot_S4000x64_S64x32_S4000x32_1_0_0_1_n_n rfl rfl rfl rfl rfl rfl,
    bias_row_entry]
  simp only [truncf_apply, shapeCast_self]

/-- The logistic function applied to an array, read at an index. -/
theorem logistic_entry {s : Shape} {φ : FTy} (v : FVec Ideal s φ) (i : s.Idx) :
    logistic v i = Ideal.logistic (v i) := rfl

/-- The head's hidden stage on a block: the rounding of H times the rounding of W into the zero
    accumulator, plus the bias along the rows, then the maximum with zero, is max (H·W + b, 0). -/
theorem hidden_entry (H : FVec Ideal S4000x32 .f32) (w1 : Vec Ideal S32x16 .f32) (b1 : Vec Ideal S16 .f32)
    (p : Fin 4000) (t : Fin 16) :
    maximumf
        (addf
          (matmul dot_S4000x32_S32x16_S4000x16_1_0_0_1_n_n none (truncf .bf16 H bitsLt_bf16_f32)
            (truncf .bf16 w1 bitsLt_bf16_f32) (constant (F := Ideal) S4000x16 .f32 0x00000000#32))
          (broadcastTo S4000x16 (shapeCast S1x16 b1 shapeCasts_S16_S1x16) broadcasts_S1x16_S4000x16))
        (broadcast S4000x16 (Scalar.ofBits (F := Ideal) .f32 0x00000000#32)) (ix2 p t)
      = hidden H w1 b1 (ix2 p t) := by
  rw [hidden_ix2, maximumf_apply, addf_apply,
    matmul_zero_entry dot_S4000x32_S32x16_S4000x16_1_0_0_1_n_n rfl rfl rfl rfl rfl rfl, bias_row_entry,
    broadcast_apply]
  show max _ (Ideal.ofBits .f32 0x00000000#32) = _
  rw [Ideal.ofBits_zero_f32]
  unfold rowDot
  simp only [truncf_apply]

/-- The [4000, 1] stored value is the trust score of the block's convolution. -/
theorem pay_trust (a h : Vec Ideal S4000x64 .f32) (wl wr : Vec Ideal S64x32 .f32) (b : Vec Ideal S32 .f32)
    (w1 : Vec Ideal S32x16 .f32) (b1 : Vec Ideal S16 .f32) (w2 : Vec Ideal S16x1 .f32) (b2 : Vec Ideal S1 .f32) :
    k1_pay1 (F := Ideal) (k1_pay3 a h wl wr b w1 b1 w2 b2) = trust (conv a h wl wr b) w1 b1 w2 b2 := by
  funext j
  obtain ⟨p, q, rfl⟩ : ∃ (p : Fin 4000) (q : Fin 1), j = ix2 p q := ⟨j 0, j 1, eq_ix2 j⟩
  rw [trust_ix2]
  unfold k1_pay1 k1_pay3
  rw [logistic_entry, addf_apply,
    matmul_zero_entry dot_S4000x16_S16x1_S4000x1_1_0_0_1_n_n rfl rfl rfl rfl rfl rfl, bias_row_entry,
    pay_conv2]
  unfold rowDot
  refine congrArg Ideal.logistic (congrArg (· + b2 (ix1 q)) (Finset.sum_congr rfl fun t _ => ?_))
  rw [truncf_apply, truncf_apply, hidden_entry]

end Cert.SageKernel

end
-- ==== Proof.ArrayLayer2.lean ====
/-
  Layer two and the trust head on the whole arrays.

  The second region walks 25 blocks of 4000 rows.  At block t it reads rows 4000·t … 4000·t + 3999 of the
  aggregated neighbours and of layer one's result, and the weights and biases whole; it writes the same rows
  of the [100000, 32] embedding and of the [100000, 1] score.  Every stage acts on rows, so entry (p, q) of
  what block t writes is entry (4000·t + p, q) of the stage applied to the whole arrays; row r lies in block
  r / 4000, so the blocks fill each output array, which therefore ends holding the convolution
  (A·Wl + H·Wr) + b and the trust score of that convolution.
-/
import proofs.«142041_j80023830659561_1_alg».proof.Proof.Gen.KernelIdeal.Frame
import proofs.«142041_j80023830659561_1_alg».proof.Proof.BlockLayer2
import Idealize.ShloMosaic.Lib.Pipeline.Value

set_option maxRecDepth 16384

noncomputable section

open scoped BigOperators

namespace Cert.SageKernel

open Cert.KernelIdeal Cert.KernelIdeal.Gen Cert.SageSpec
open Idealize.ShloMosaic Idealize.ShloMosaic.ValueIdx Idealize.ShloMosaic.TcCoe Idealize.SL.Sem
open Idealize.ShloMosaic.Pipeline (Dat Cfg Window)

/-! ## Origins and block indices -/

/-- The origin of a rank-two array. -/
theorem zero_origin2 : (![0, 0] : Fin 2 → Nat) = fun _ => 0 :=
  funext fun a => by match a with | ⟨0, _⟩ => rfl | ⟨1, _⟩ => rfl

/-- The origin of a rank-one array. -/
theorem zero_origin1 : (![0] : Fin 1 → Nat) = fun _ => 0 :=
  funext fun a => by match a with | ⟨0, _⟩ => rfl

/-- At grid point t the two row-blocked inputs and the two outputs sit at block (t, 0): rows 4000·t to
    4000·t + 3999, all columns. -/
theorem rows_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- At every grid point the weights and biases sit at block 0: the whole array. -/
theorem weights_index : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- There are 25 blocks of 4000 rows. -/
theorem grid_point_lt (t : Fin cfg1.N) : t.val < 25 := t.isLt

variable (V : (c : Dev nD) → (b : Ref sig .tc) → Buf (Elt Ideal) ((c : Thread nD τ).loc b))

/-! ## The blocks read where the rows say -/

/-- Row p of block t of the aggregated neighbours is row 4000·t + p of the array. -/
theorem read_neighbours (c : Dev nD) (t : Fin cfg1.N) (p : Fin 4000) (k : Fin 64)
    (hp : t.val * 4000 + p.val < 100000) :
    iblk1 V c 0 t (ix2 p k) = V c main_v42 (ix2 ⟨t.val * 4000 + p.val, hp⟩ k) := by
  show V c main_v42 (((cfg1.win 0).blk t).view.emb (ix2 p k)) = _
  refine congrArg _ (funext fun a => Fin.ext ?_)
  obtain ⟨e0, e1, -⟩ := rows_index t
  match a with
  | ⟨0, _⟩ => show win1_0.index t (0 : Fin 2) * 4000 + 1 * p.val = t.val * 4000 + p.val; omega
  | ⟨1, _⟩ => show win1_0.index t (1 : Fin 2) * 64 + 1 * k.val = k.val; omega

/-- Row p of block t of layer one's result is row 4000·t + p of the array. -/
theorem read_features (c : Dev nD) (t : Fin cfg1.N) (p : Fin 4000) (k : Fin 64)
    (hp : t.val * 4000 + p.val < 100000) :
    iblk1 V c 1 t (ix2 p k) = V c main_v23 (ix2 ⟨t.val * 4000 + p.val, hp⟩ k) := by
  show V c main_v23 (((cfg1.win 1).blk t).view.emb (ix2 p k)) = _
  refine congrArg _ (funext fun a => Fin.ext ?_)
  obtain ⟨-, -, e0, e1, -⟩ := rows_index t
  match a with
  | ⟨0, _⟩ => show win1_1.index t (0 : Fin 2) * 4000 + 1 * p.val = t.val * 4000 + p.val; omega
  | ⟨1, _⟩ => show win1_1.index t (1 : Fin 2) * 64 + 1 * k.val = k.val; omega

/-- The block of the left weights of layer two is the whole array. -/
theorem read_wl (c : Dev nD) (t : Fin cfg1.N) : iblk1 V c 2 t = V c main_arg5 := by
  funext y
  show V c main_arg5 (((cfg1.win 2).blk t).view.emb y) = V c main_arg5 y
  refine congrArg _ (funext fun a => Fin.ext ?_)
  obtain ⟨e0, e1, -⟩ := weights_index t
  match a with
  | ⟨0, _⟩ => show win1_2.index t (0 : Fin 2) * 64 + 1 * (y 0).val = (y 0).val; omega
  | ⟨1, _⟩ => show win1_2.index t (1 : Fin 2) * 32 + 1 * (y 1).val = (y 1).val; omega

/-- The block of the right weights of layer two is the whole array. -/
theorem read_wr (c : Dev nD) (t : Fin cfg1.N) : iblk1 V c 3 t = V c main_arg6 := by
  funext y
  show V c main_arg6 (((cfg1.win 3).blk t).view.emb y) = V c main_arg6 y
  refine congrArg _ (funext fun a => Fin.ext ?_)
  obtain ⟨-, -, e0, e1, -⟩ := weights_index t
  match a with
  | ⟨0, _⟩ => show win1_3.index t (0 : Fin 2) * 64 + 1 * (y 0).val = (y 0).val; omega
  | ⟨1, _⟩ => show win1_3.index t (1 : Fin 2) * 32 + 1 * (y 1).val = (y 1).val; omega

/-- The block of layer two's bias is the whole vector. -/
theorem read_b (c : Dev nD) (t : Fin cfg1.N) : iblk1 V c 4 t = V c main_arg7 := by
  funext y
  show V c main_arg7 (((cfg1.win 4).blk t).view.emb y) = V c main_arg7 y
  refine congrArg _ (funext fun a => Fin.ext ?_)
  obtain ⟨-, -, -, -, e0, -⟩ := weights_index t
  match a with
  | ⟨0, _⟩ => show win1_4.index t (0 : Fin 1) * 32 + 1 * (y 0).val = (y 0).val; omega

/-- The block of the head's first weights is the whole array. -/
theorem read_w1 (c : Dev nD) (t : Fin cfg1.N) : iblk1 V c 5 t = V c main_arg8 := by
  funext y
  show V c main_arg8 (((cfg1.win 5).blk t).view.emb y) = V c main_arg8 y
  refine congrArg _ (funext fun a => Fin.ext ?_)
  obtain ⟨-, -, -, -, -, e0, e1, -⟩ := weights_index t
  match a with
  | ⟨0, _⟩ => show win1_5.index t (0 : Fin 2) * 32 + 1 * (y 0).val = (y 0).val; omega
  | ⟨1, _⟩ => show win1_5.index t (1 : Fin 2) * 16 + 1 * (y 1).val = (y 1).val; omega

/-- The block of the head's first bias is the whole vector. -/
theorem read_b1 (c : Dev nD) (t : Fin cfg1.N) : iblk1 V c 6 t = V c main_arg9 := by
  funext y
  show V c main_arg9 (((cfg1.win 6).blk t).view.emb y) = V c main_arg9 y
  refine congrArg _ (funext fun a => Fin.ext ?_)
  obtain ⟨-, -, -, -, -, -, -, e0, -⟩ := weights_index t
  match a with
  | ⟨0, _⟩ => show win1_6.index t (0 : Fin 1) * 16 + 1 * (y 0).val = (y 0).val; omega

/-- The block of the head's second weights is the whole array. -/
theorem read_w2 (c : Dev nD) (t : Fin cfg1.N) : iblk1 V c 7 t = V c main_arg10 := by
  funext y
  show V c main_arg10 (((cfg1.win 7).blk t).view.emb y) = V c main_arg10 y
  refine congrArg _ (funext fun a => Fin.ext ?_)
  obtain ⟨-, -, -, -, -, -, -, -, e0, e1, -⟩ := weights_index t
  match a with
  | ⟨0, _⟩ => show win1_7.index t (0 : Fin 2) * 16 + 1 * (y 0).val = (y 0).val; omega
  | ⟨1, _⟩ => show win1_7.index t (1 : Fin 2) * 1 + 1 * (y 1).val = (y 1).val; omega

/-- The block of the head's second bias is the whole vector. -/
theorem read_b2 (c : Dev nD) (t : Fin cfg1.N) : iblk1 V c 8 t = V c main_arg11 := by
  funext y
  show V c main_arg11 (((cfg1.win 8).blk t).view.emb y) = V c main_arg11 y
  refine congrArg _ (funext fun a => Fin.ext ?_)
  obtain ⟨-, -, -, -, -, -, -, -, -, -, e0⟩ := weights_index t
  match a with
  | ⟨0, _⟩ => show win1_8.index t (0 : Fin 1) * 1 + 1 * (y 0).val = (y 0).val; omega

/-- Row p of block t of the convolution on the blocks is row 4000·t + p of the convolution on the arrays. -/
theorem conv_block_row (c : Dev nD) (t : Fin cfg1.N) (p : Fin 4000) (q : Fin 32)
    (hp : t.val * 4000 + p.val < 100000) :
    conv (iblk1 V c 0 t) (iblk1 V c 1 t) (V c main_arg5) (V c main_arg6) (V c main_arg7) (ix2 p q)
      = conv (V c main_v42) (V c main_v23) (V c main_arg5) (V c main_arg6) (V c main_arg7)
          (ix2 ⟨t.val * 4000 + p.val, hp⟩ q) :=
  conv_rows _ _ _ (fun k => read_neighbours V c t p k hp) (fun k => read_features V c t p k hp) q

/-! ## The embedding: what a point writes back, and the whole array -/

/-- Entry (p, q) of block t of the embedding's array is entry (4000·t + p, q) of the array. -/
theorem embedding_block_entry (t : Fin cfg1.N) (p : Fin 4000) (q : Fin 32)
    (hp : t.val * 4000 + p.val < 100000) :
    ((cfg1.win 9).blk t).view.emb (ix2 p q) = ix2 ⟨t.val * 4000 + p.val, hp⟩ q := by
  obtain ⟨-, -, -, -, e0, e1, -⟩ := rows_index t
  funext a; apply Fin.ext
  match a with
  | ⟨0, _⟩ => show win1_9.index t (0 : Fin 2) * 4000 + 1 * p.val = t.val * 4000 + p.val; omega
  | ⟨1, _⟩ => show win1_9.index t (1 : Fin 2) * 32 + 1 * q.val = q.val; omega

/-- What grid point t writes back to the embedding's array is block t of the convolution of the arrays. -/
theorem flushed_embedding (c : Dev nD) (t : Fin cfg1.N) :
    (dat1 (F := Ideal) V c).flushed 9 t = ((cfg1.win 9).blk t).view.read (Elt Ideal)
      (conv (V c main_v42) (V c main_v23) (V c main_arg5) (V c main_arg6) (V c main_arg7)) := by
  show (cfg1.win 9).cut (grid1.coords t) ((dat1 V c).after 9 t) = _
  rw [after1_9]
  unfold out1_9
  rw [View.canon_unit_zero zero_origin2]
  simp only [View.ld_unit_zero (S := S4000x64) zero_origin2, View.ld_unit_zero (S := S64x32) zero_origin2,
    View.ld_unit_zero (S := S32) zero_origin1]
  rw [pay_conv2, read_wl, read_wr, read_b]
  funext j
  obtain ⟨p, q, rfl⟩ : ∃ (p : Fin 4000) (q : Fin 32), j = ix2 p q := ⟨j 0, j 1, eq_ix2 j⟩
  have ht := grid_point_lt t
  have hp : t.val * 4000 + p.val < 100000 := by have := p.isLt; omega
  show conv (iblk1 V c 0 t) (iblk1 V c 1 t) (V c main_arg5) (V c main_arg6) (V c main_arg7) (ix2 p q)
    = conv (V c main_v42) (V c main_v23) (V c main_arg5) (V c main_arg6) (V c main_arg7)
        (((cfg1.win 9).blk t).view.emb (ix2 p q))
  exact (conv_block_row V c t p q hp).trans (congrArg _ (embedding_block_entry t p q hp).symm)

/-- An index of the embedding's array is in point t's block iff each coordinate is in the block's range. -/
theorem mem_embedding_block (t : Fin cfg1.N) (i : S100000x32.Idx) :
    i ∈ ((cfg1.win 9).blk t).view.set ↔ ∀ a : Fin 2, win1_9.index t a * S4000x32.size a ≤ (i a).val
      ∧ (i a).val < win1_9.index t a * S4000x32.size a + S4000x32.size a := by
  show i ∈ ((View.whole main_v43_0).slice (win1_9.rect t)).set ↔ _
  rw [View.set_slice_whole, Rect.mem_set_unit]
  exact Iff.rfl

/-- Row r of the embedding's array is in block r / 4000. -/
theorem cover_embedding (i : S100000x32.Idx) :
    ∃ t : Fin cfg1.N, (cfg1.win 9).flush t = true ∧ i ∈ ((cfg1.win 9).blk t).view.set := by
  have hi0 : (i 0).val < 100000 := (i 0).isLt
  have hi1 : (i 1).val < 32 := (i 1).isLt
  have hq : (i 0).val / 4000 < 25 := by omega
  refine ⟨⟨(i 0).val / 4000, hq⟩, flush1_9 _, ?_⟩
  rw [mem_embedding_block]
  obtain ⟨-, -, -, -, e0, e1, -⟩ := rows_index ⟨(i 0).val / 4000, hq⟩
  have e0' : win1_9.index ⟨(i 0).val / 4000, hq⟩ (0 : Fin 2) = (i 0).val / 4000 := e0
  intro a
  match a with
  | ⟨0, _⟩ =>
    show win1_9.index ⟨(i 0).val / 4000, hq⟩ (0 : Fin 2) * 4000 ≤ (i 0).val
      ∧ (i 0).val < win1_9.index ⟨(i 0).val / 4000, hq⟩ (0 : Fin 2) * 4000 + 4000
    omega
  | ⟨1, _⟩ =>
    show win1_9.index ⟨(i 0).val / 4000, hq⟩ (1 : Fin 2) * 32 ≤ (i 1).val
      ∧ (i 1).val < win1_9.index ⟨(i 0).val / 4000, hq⟩ (1 : Fin 2) * 32 + 32
    omega

/-- After the second region the embedding's array is the convolution of the arrays the region finds. -/
theorem region1_embedding (c : Dev nD) :
    (dat1 (F := Ideal) V c).arrAt 9 cfg1.N
      = conv (V c main_v42) (V c main_v23) (V c main_arg5) (V c main_arg6) (V c main_arg7) :=
  (dat1 (F := Ideal) V c).arrAt_eq_of_cover 9 _ (fun t _ => flushed_embedding V c t) cover_embedding

/-! ## The trust score: what a point writes back, and the whole array -/

/-- Entry (p, q) of block t of the score's array is entry (4000·t + p, q) of the array. -/
theorem trust_block_entry (t : Fin cfg1.N) (p : Fin 4000) (q : Fin 1)
    (hp : t.val * 4000 + p.val < 100000) :
    ((cfg1.win 10).blk t).view.emb (ix2 p q) = ix2 ⟨t.val * 4000 + p.val, hp⟩ q := by
  obtain ⟨-, -, -, -, -, -, e0, e1⟩ := rows_index t
  funext a; apply Fin.ext
  match a with
  | ⟨0, _⟩ => show win1_10.index t (0 : Fin 2) * 4000 + 1 * p.val = t.val * 4000 + p.val; omega
  | ⟨1, _⟩ => show win1_10.index t (1 : Fin 2) * 1 + 1 * q.val = q.val; omega

/-- What grid point t writes back to the score's array is block t of the trust score of the arrays. -/
theorem flushed_trust (c : Dev nD) (t : Fin cfg1.N) :
    (dat1 (F := Ideal) V c).flushed 10 t = ((cfg1.win 10).blk t).view.read (Elt Ideal)
      (trust (conv (V c main_v42) (V c main_v23) (V c main_arg5) (V c main_arg6) (V c main_arg7))
        (V c main_arg8) (V c main_arg9) (V c main_arg10) (V c main_arg11)) := by
  show (cfg1.win 10).cut (grid1.coords t) ((dat1 V c).after 10 t) = _
  rw [after1_10]
  unfold out1_10
  rw [View.canon_unit_zero zero_origin2]
  simp only [View.ld_unit_zero (S := S4000x64) zero_origin2, View.ld_unit_zero (S := S64x32) zero_origin2,
    View.ld_unit_zero (S := S32) zero_origin1, View.ld_unit_zero (S := S32x16) zero_origin2,
    View.ld_unit_zero (S := S16) zero_origin1, View.ld_unit_zero (S := S16x1) zero_origin2,
    View.ld_unit_zero (S := S1) zero_origin1]
  rw [pay_trust, read_wl, read_wr, read_b, read_w1, read_b1, read_w2, read_b2]
  funext j
  obtain ⟨p, q, rfl⟩ : ∃ (p : Fin 4000) (q : Fin 1), j = ix2 p q := ⟨j 0, j 1, eq_ix2 j⟩
  have ht := grid_point_lt t
  have hp : t.val * 4000 + p.val < 100000 := by have := p.isLt; omega
  show trust (conv (iblk1 V c 0 t) (iblk1 V c 1 t) (V c main_arg5) (V c main_arg6) (V c main_arg7))
      (V c main_arg8) (V c main_arg9) (V c main_arg10) (V c main_arg11) (ix2 p q)
    = trust (conv (V c main_v42) (V c main_v23) (V c main_arg5) (V c main_arg6) (V c main_arg7))
        (V c main_arg8) (V c main_arg9) (V c main_arg10) (V c main_arg11)
        (((cfg1.win 10).blk t).view.emb (ix2 p q))
  exact (trust_rows _ _ _ _ (fun k => conv_block_row V c t p k hp) q).trans
    (congrArg _ (trust_block_entry t p q hp).symm)

/-- An index of the score's array is in point t's block iff each coordinate is in the block's range. -/
theorem mem_trust_block (t : Fin cfg1.N) (i : S100000x1.Idx) :
    i ∈ ((cfg1.win 10).blk t).view.set ↔ ∀ a : Fin 2, win1_10.index t a * S4000x1.size a ≤ (i a).val
      ∧ (i a).val < win1_10.index t a * S4000x1.size a + S4000x1.size a := by
  show i ∈ ((View.whole main_v43_1).slice (win1_10.rect t)).set ↔ _
  rw [View.set_slice_whole, Rect.mem_set_unit]
  exact Iff.rfl

/-- Row r of the score's array is in block r / 4000. -/
theorem cover_trust (i : S100000x1.Idx) :
    ∃ t : Fin cfg1.N, (cfg1.win 10).flush t = true ∧ i ∈ ((cfg1.win 10).blk t).view.set := by
  have hi0 : (i 0).val < 100000 := (i 0).isLt
  have hi1 : (i 1).val < 1 := (i 1).isLt
  have hq : (i 0).val / 4000 < 25 := by omega
  refine ⟨⟨(i 0).val / 4000, hq⟩, flush1_10 _, ?_⟩
  rw [mem_trust_block]
  obtain ⟨-, -, -, -, -, -, e0, e1⟩ := rows_index ⟨(i 0).val / 4000, hq⟩
  have e0' : win1_10.index ⟨(i 0).val / 4000, hq⟩ (0 : Fin 2) = (i 0).val / 4000 := e0
  intro a
  match a with
  | ⟨0, _⟩ =>
    show win1_10.index ⟨(i 0).val / 4000, hq⟩ (0 : Fin 2) * 4000 ≤ (i 0).val
      ∧ (i 0).val < win1_10.index ⟨(i 0).val / 4000, hq⟩ (0 : Fin 2) * 4000 + 4000
    omega
  | ⟨1, _⟩ =>
    show win1_10.index ⟨(i 0).val / 4000, hq⟩ (1 : Fin 2) * 1 ≤ (i 1).val
      ∧ (i 1).val < win1_10.index ⟨(i 0).val / 4000, hq⟩ (1 : Fin 2) * 1 + 1
    omega

/-- After the second region the score's array is the trust score of the convolution of the arrays the
    region finds. -/
theorem region1_trust (c : Dev nD) :
    (dat1 (F := Ideal) V c).arrAt 10 cfg1.N
      = trust (conv (V c main_v42) (V c main_v23) (V c main_arg5) (V c main_arg6) (V c main_arg7))
          (V c main_arg8) (V c main_arg9) (V c main_arg10) (V c main_arg11) :=
  (dat1 (F := Ideal) V c).arrAt_eq_of_cover 10 _ (fun t _ => flushed_trust V c t) cover_trust

end Cert.SageKernel

end
-- ==== Proof.KernelValue.lean ====
/-
  The idealized kernel program's two results are the network's embedding and trust score of its arguments.

  The program is two kernel regions among host operations.  Its run ends with the two result arrays at what
  the second region's write-backs leave.  Block by block those write-backs are the second convolution, and the
  trust head of it, of the arrays the region finds at its entry: the mean of the neighbours' first-layer
  features and the first-layer features themselves, which are what the first region's write-backs left,
  namely the first layer of the mean of the neighbours' input features.  Read back to the launch memory this
  is `embedding` and `trustScore` of the arguments.
-/
import proofs.«142041_j80023830659561_1_alg».proof.Proof.Boundaries
import proofs.«142041_j80023830659561_1_alg».proof.Proof.KRun
import proofs.«142041_j80023830659561_1_alg».proof.Proof.ArrayLayer1
import proofs.«142041_j80023830659561_1_alg».proof.Proof.ArrayLayer2

set_option maxRecDepth 16384

noncomputable section

namespace Cert.SageKernel

open Cert.KernelIdeal Cert.KernelIdeal.Gen Cert.SageSpec Cert.SageNet
open Idealize.ShloMosaic Idealize.ShloMosaic.TcCoe Idealize.SL.Sem

variable (m : (ℓ : Loc nD τ sig) → Buf (Elt Ideal) ℓ) (ρ : Dev nD → PrngReg)

/-- After the first region its result array holds the first layer's features. -/
theorem exit1_firstLayer (c : Dev nD) :
    V2 (F := Ideal) m ρ c main_v23 = firstLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  rw [region0_array (V1 m ρ) c, entry1_mean, entry1_arg0, entry1_arg2, entry1_arg3, entry1_arg4]
  rfl

/-- After the second region its first result array holds the embedding. -/
theorem exit2_embedding (c : Dev nD) :
    W4 (F := Ideal) m ρ c (Proc.devRef .tc main_v43_0) = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 9).trans ?_
  rw [region1_embedding (V3 m ρ) c, entry2_mean, entry2_layer1, exit1_firstLayer, entry2_arg5, entry2_arg6, entry2_arg7]
  rfl

/-- After the second region its second result array holds the trust score. -/
theorem exit2_trust (c : Dev nD) :
    W4 (F := Ideal) m ρ c (Proc.devRef .tc main_v43_1) = trustScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W4_arr m ρ c 10).trans ?_
  rw [region1_trust (V3 m ρ) c, entry2_mean, entry2_layer1, exit1_firstLayer, entry2_arg5, entry2_arg6, entry2_arg7,
    entry2_arg8, entry2_arg9, entry2_arg10, entry2_arg11]
  rfl

/-- Every weakly fair execution of the idealized kernel program ends, without a fault, with its two results at
    the embedding and the trust score of the arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v43_0) = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v43_1) = trustScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (exit2_embedding m ρ c), (h c).2.1.trans (exit2_trust m ρ c), (h c).2.2⟩)
    (Cert.KernelIdeal.Results.run_results m ρ)

end Cert.SageKernel

end
-- ==== Proof.RefValue.lean ====
import proofs.«142041_j80023830659561_1_alg».proof.Defs
import proofs.«142041_j80023830659561_1_alg».proof.Proof.Gen.ReferenceIdeal.Read
import proofs.«142041_j80023830659561_1_alg».proof.Proof.Spec
import Idealize.ShloMosaic.Lib.ValueIdx
import Idealize.ShloMosaic.PureOps.Ideal
import Idealize.ShloMosaic.PureOps.Ideal.Laws
import Idealize.ShloMosaic.PureOps.IdealRules

/-
  The reference program's value on the extended reals, stage by stage.

  With A = the mean of the neighbours' rows of X along the edges (an array-valued function of X and the
  edge list, used here only as a whole), the reference computes

    H  = max (A·Wl₁ + X·Wr₁ + b₁, 0),        A₂ = the same mean taken of H's rows,
    H₂ = A₂·Wl₂ + H·Wr₂ + b₂,                s = 1 / (1 + e^(-(max (H₂·Wt₁ + bt₁, 0)·Wt₂ + bt₂))).

  Each matrix product read at (p, q) is the finite sum over the contracted axis of the products of the
  entries (p, t) and (t, q); a bias vector is laid along the rows, so at (p, q) it contributes its entry q.
-/

noncomputable section

open scoped BigOperators

namespace Cert.SageRef

open Cert.ReferenceIdeal Cert.ReferenceIdeal.Read Cert.SageSpec Idealize.ShloMosaic Idealize.ShloMosaic.ValueIdx

variable (x0 : (⟨S100000x64, .f32⟩ : BufTy).Contents (Elt Ideal)) (x1 : (⟨S2x1600000, .i32⟩ : BufTy).Contents (Elt Ideal))
  (x2 x3 : (⟨S64x64, .f32⟩ : BufTy).Contents (Elt Ideal)) (x4 : (⟨S64, .f32⟩ : BufTy).Contents (Elt Ideal))
  (x5 x6 : (⟨S64x32, .f32⟩ : BufTy).Contents (Elt Ideal)) (x7 : (⟨S32, .f32⟩ : BufTy).Contents (Elt Ideal))
  (x8 : (⟨S32x16, .f32⟩ : BufTy).Contents (Elt Ideal)) (x9 : (⟨S16, .f32⟩ : BufTy).Contents (Elt Ideal))
  (x10 : (⟨S16x1, .f32⟩ : BufTy).Contents (Elt Ideal)) (x11 : (⟨S1, .f32⟩ : BufTy).Contents (Elt Ideal))

/-- Layer one: at (p, q) the value is max ((∑ₜ A(p,t)·Wl₁(t,q) + ∑ₜ X(p,t)·Wr₁(t,q)) + b₁(q), 0),
    with A the mean aggregation of X. -/
theorem ref_layer1 : val_main_v29 (F := Ideal) x0 x1 x2 x3 x4 = layer1 (val_main_v22 (F := Ideal) x0 x1) x0 x2 x3 x4 := by
  funext i
  obtain ⟨p, q, rfl⟩ : ∃ (p : Fin 100000) (q : Fin 64), i = ix2 p q := ⟨i 0, i 1, eq_ix2 i⟩
  rw [layer1_ix2]
  unfold rowDot
  -- the entries the two products read at (p, q): (p, k) on the left, (k, q) on the right; the bias entry q
  have e1 : ∀ k : Fin 64, lidx_main_v23 (ix2 p q) k = ix2 p k := fun k => funext fun a => Fin.ext (by match a with | ⟨0, _⟩ => rfl | ⟨1, _⟩ => rfl)
  have e2 : ∀ k : Fin 64, ridx_main_v23 (ix2 p q) k = ix2 k q := fun k => funext fun a => Fin.ext (by match a with | ⟨0, _⟩ => rfl | ⟨1, _⟩ => rfl)
  have e3 : ∀ k : Fin 64, lidx_main_v24 (ix2 p q) k = ix2 p k := fun k => funext fun a => Fin.ext (by match a with | ⟨0, _⟩ => rfl | ⟨1, _⟩ => rfl)
  have e4 : ∀ k : Fin 64, ridx_main_v24 (ix2 p q) k = ix2 k q := fun k => funext fun a => Fin.ext (by match a with | ⟨0, _⟩ => rfl | ⟨1, _⟩ => rfl)
  have e5 : idx_main_v26 (idx_main_v27 (ix2 p q)) = ix1 q := funext fun a => Fin.ext (by match a with | ⟨0, _⟩ => rfl)
  rw [val_main_v29_apply, val_main_v28_apply, val_main_v25_apply, val_main_v23_apply, val_main_v24_apply, val_main_v27_apply, val_main_v26_apply,
    val_main_call0_v0_apply, val_main_call0_cst_apply]
  simp only [e1, e2, e3, e4, e5, Ideal.addf_def, Ideal.maximumf_def, Ideal.ofBits_def, Ideal.ofBits_zero_f32]

/-- The second aggregation is the first one's operations, term for term, applied to layer one's output
    in place of X: the same gather along the sources, the same scatter-add along the targets into zeros,
    the same division by max (degree, 1). -/
theorem ref_agg2 : val_main_v48 (F := Ideal) x0 x1 x2 x3 x4 = val_main_v22 (F := Ideal) (val_main_v29 (F := Ideal) x0 x1 x2 x3 x4) x1 := rfl

/-- Layer two (the embedding): at (p, q) the value is (∑ₜ A₂(p,t)·Wl₂(t,q) + ∑ₜ H(p,t)·Wr₂(t,q)) + b₂(q). -/
theorem ref_embedding : val_main_v54 (F := Ideal) x0 x1 x2 x3 x4 x5 x6 x7
    = conv (val_main_v48 (F := Ideal) x0 x1 x2 x3 x4) (val_main_v29 (F := Ideal) x0 x1 x2 x3 x4) x5 x6 x7 := by
  funext i
  obtain ⟨p, q, rfl⟩ : ∃ (p : Fin 100000) (q : Fin 32), i = ix2 p q := ⟨i 0, i 1, eq_ix2 i⟩
  rw [conv_ix2]
  unfold rowDot
  have e1 : ∀ k : Fin 64, lidx_main_v49 (ix2 p q) k = ix2 p k := fun k => funext fun a => Fin.ext (by match a with | ⟨0, _⟩ => rfl | ⟨1, _⟩ => rfl)
  have e2 : ∀ k : Fin 64, ridx_main_v49 (ix2 p q) k = ix2 k q := fun k => funext fun a => Fin.ext (by match a with | ⟨0, _⟩ => rfl | ⟨1, _⟩ => rfl)
  have e3 : ∀ k : Fin 64, lidx_main_v50 (ix2 p q) k = ix2 p k := fun k => funext fun a => Fin.ext (by match a with | ⟨0, _⟩ => rfl | ⟨1, _⟩ => rfl)
  have e4 : ∀ k : Fin 64, ridx_main_v50 (ix2 p q) k = ix2 k q := fun k => funext fun a => Fin.ext (by match a with | ⟨0, _⟩ => rfl | ⟨1, _⟩ => rfl)
  have e5 : idx_main_v52 (idx_main_v53 (ix2 p q)) = ix1 q := funext fun a => Fin.ext (by match a with | ⟨0, _⟩ => rfl)
  rw [val_main_v54_apply, val_main_v51_apply, val_main_v49_apply, val_main_v50_apply, val_main_v53_apply, val_main_v52_apply]
  simp only [e1, e2, e3, e4, e5, Ideal.addf_def]

/-- The head's hidden stage at (p, t): max (∑ₖ H₂(p,k)·Wt₁(k,t) + bt₁(t), 0). -/
theorem ref_hidden_ix2 (p : Fin 100000) (t : Fin 16) :
    val_main_v59 (F := Ideal) x0 x1 x2 x3 x4 x5 x6 x7 x8 x9 (ix2 p t)
      = hidden (val_main_v54 (F := Ideal) x0 x1 x2 x3 x4 x5 x6 x7) x8 x9 (ix2 p t) := by
  rw [hidden_ix2]
  unfold rowDot
  have e1 : ∀ k : Fin 32, lidx_main_v55 (ix2 p t) k = ix2 p k := fun k => funext fun a => Fin.ext (by match a with | ⟨0, _⟩ => rfl | ⟨1, _⟩ => rfl)
  have e2 : ∀ k : Fin 32, ridx_main_v55 (ix2 p t) k = ix2 k t := fun k => funext fun a => Fin.ext (by match a with | ⟨0, _⟩ => rfl | ⟨1, _⟩ => rfl)
  have e3 : idx_main_v56 (idx_main_v57 (ix2 p t)) = ix1 t := funext fun a => Fin.ext (by match a with | ⟨0, _⟩ => rfl)
  rw [val_main_v59_apply, val_main_v58_apply, val_main_v55_apply, val_main_v57_apply, val_main_v56_apply,
    val_main_call1_v0_apply, val_main_call1_cst_apply]
  simp only [e1, e2, e3, Ideal.addf_def, Ideal.maximumf_def, Ideal.ofBits_def, Ideal.ofBits_zero_f32]

/-- The trust score at (p, q), q the one column: 1 / (1 + e^(-(∑ₜ T(p,t)·Wt₂(t,q) + bt₂(q)))), T the hidden stage.
    The one-entry bias is read at its only index, which is q because q < 1. -/
theorem ref_trust : val_main_v69 (F := Ideal) x0 x1 x2 x3 x4 x5 x6 x7 x8 x9 x10 x11
    = trust (val_main_v54 (F := Ideal) x0 x1 x2 x3 x4 x5 x6 x7) x8 x9 x10 x11 := by
  funext i
  obtain ⟨p, q, rfl⟩ : ∃ (p : Fin 100000) (q : Fin 1), i = ix2 p q := ⟨i 0, i 1, eq_ix2 i⟩
  rw [trust_ix2]
  unfold rowDot Ideal.logistic
  have e1 : ∀ k : Fin 16, lidx_main_v60 (ix2 p q) k = ix2 p k := fun k => funext fun a => Fin.ext (by match a with | ⟨0, _⟩ => rfl | ⟨1, _⟩ => rfl)
  have e2 : ∀ k : Fin 16, ridx_main_v60 (ix2 p q) k = ix2 k q := fun k => funext fun a => Fin.ext (by match a with | ⟨0, _⟩ => rfl | ⟨1, _⟩ => rfl)
  have e3 : idx_main_v61 (idx_main_v62 (ix2 p q)) = ix1 q := funext fun a => Fin.ext (by
    match a with | ⟨0, _⟩ => exact (Nat.lt_one_iff.mp q.isLt).symm)
  -- the word 0x3F800000 denotes the number 1
  have one : Ideal.ofBits .f32 0x3F800000#32 = 1 := IdealRules.sign_bit.ideal_onePat .f32
  rw [val_main_v69_apply, val_main_v68_apply, val_main_cst_11_apply, val_main_v67_apply, val_main_v66_apply, val_main_cst_10_apply,
    val_main_v65_apply, val_main_v64_apply, val_main_v63_apply, val_main_v60_apply, val_main_v62_apply, val_main_v61_apply]
  simp only [e1, e2, e3, ref_hidden_ix2, one, Ideal.addf_def, Ideal.hostDivf_def, Ideal.hostUnary_exp_def, Ideal.hostNegf_def,
    Ideal.negf_def, Ideal.ofBits_def]

end Cert.SageRef

end
-- ==== Proof.RefNetwork.lean ====
/-
  The reference program's two results are the network's embedding and trust score of its arguments.

  The reference's run ends with each result at the composed term of its operations.  Read one operation at a
  time that term is: the first layer of the mean of the neighbours' features; the same mean taken again of
  that layer; the second convolution; and the trust head with its logistic function spelt as
  1 / (1 + e^(-z)).  Put together these are the functions `embedding` and `trustScore`.
-/
import proofs.«142041_j80023830659561_1_alg».proof.Proof.RefValue
import proofs.«142041_j80023830659561_1_alg».proof.Proof.Network

noncomputable section

namespace Cert.SageRef

open Cert.ReferenceIdeal Cert.ReferenceIdeal.Read Cert.SageSpec Cert.SageNet
open Idealize.ShloMosaic Idealize.ShloMosaic.TcCoe Idealize.SL.Sem

variable (m : (ℓ : Loc nD τ sig) → Buf (Elt Ideal) ℓ)

/-- The first result of the reference's run is the embedding of its arguments. -/
theorem result_embedding (c : Dev nD) :
    Cert.ReferenceIdeal.Value.res_main_v54 (F := Ideal) m c
      = embedding (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [val_main_v54_eq, ref_embedding, ref_agg2, ref_layer1]
  rfl

/-- The second result of the reference's run is the trust score of its arguments. -/
theorem result_trust (c : Dev nD) :
    Cert.ReferenceIdeal.Value.res_main_v69 (F := Ideal) m c
      = trustScore (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  rw [val_main_v69_eq, ref_trust, ref_embedding, ref_agg2, ref_layer1]
  rfl

end Cert.SageRef

end
-- ==== Proof.lean ====
/- The proof of `Cert.Claim` (proofs.«142041_j80023830659561_1_alg».proof.Defs): a two-layer mean-aggregation graph network
   with a trust head, as a program of two kernel regions among host operations, against its plain reference.

   Both programs first take, on the host and by the very same operations, the mean over each node's incoming
   edges of the source nodes' features; that stage is carried as one function of a feature array and the edge
   list and is never opened.  What differs is the dense part.  The kernel program computes it block by block,
   4000 rows at a time, each product a matrix unit product into a zero accumulator of operands narrowed to a
   shorter float format, the logistic function one operation; the reference computes it on whole arrays with
   host products and spells the logistic function 1 / (1 + e^(-z)).  On the extended reals narrowing is the
   identity, a product into zero is the product, and the one operation is that quotient, so row by row both
   are  max (M·Wl₁ + x·Wr₁ + b₁, 0),  then  M'·Wl₂ + h·Wr₂ + b₂,  then  σ (max (z·Wt₁ + bt₁, 0)·Wt₂ + bt₂),
   with the same grouping of the sums; no law beyond that is used, and finiteness of the inputs is not needed.

   Proof/Spec.lean states the dense stages for any number of rows; Proof/LibPlainDot.lean reads a plain matrix
   product at an entry; Proof/BlockLayer1.lean and Proof/BlockLayer2.lean show a block's stored values are the
   stages on the block's rows, Proof/ArrayLayer1.lean and Proof/ArrayLayer2.lean that the blocks tile the arrays;
   Proof/Network.lean names the whole network; Proof/Boundaries.lean reads the arrays each region finds back to
   the launch memory; Proof/KRun.lean and Proof/KernelValue.lean give the kernel program's run with its results
   named, Proof/RefValue.lean and Proof/RefNetwork.lean the reference's.  The ideal pass rewrote nothing, so the
   kernel's idealization is its own text read on the extended reals. -/
import proofs.«142041_j80023830659561_1_alg».proof.Defs
import proofs.«142041_j80023830659561_1_alg».proof.Proof.Gen.Kernel
import proofs.«142041_j80023830659561_1_alg».proof.Proof.Gen.Kernel.Frame
import proofs.«142041_j80023830659561_1_alg».proof.Proof.Gen.KernelIdeal
import proofs.«142041_j80023830659561_1_alg».proof.Proof.Gen.KernelIdeal.Frame
import proofs.«142041_j80023830659561_1_alg».proof.Proof.Gen.ReferenceIdeal
import proofs.«142041_j80023830659561_1_alg».proof.Proof.Gen.ReferenceIdeal.Run
import proofs.«142041_j80023830659561_1_alg».proof.Proof.Gen.Pre_finite_inputs
import proofs.«142041_j80023830659561_1_alg».proof.Proof.KernelValue
import proofs.«142041_j80023830659561_1_alg».proof.Proof.RefNetwork
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- From memories that agree on the arguments both programs end with the embedding and the trust score of
    those arguments. -/
theorem algebraic : Cert.algebraic_KernelIdeal_ReferenceIdeal := by
  intro m ρ m' ρ' _ hagree
  refine ⟨_, _, Cert.SageKernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.SageRef.result_embedding, (hagree c).1, (hagree c).2.1, (hagree c).2.2.1, (hagree c).2.2.2.1, (hagree c).2.2.2.2.1, (hagree c).2.2.2.2.2.1, (hagree c).2.2.2.2.2.2.1, (hagree c).2.2.2.2.2.2.2.1]
  · rw [Cert.SageRef.result_trust, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
